-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 54
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x64, .f32⟩
  | .hbm, ⟨53, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_v44 : Ref sig .tc := ⟨.hbm, 68, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.Dense.lean ====
/-
  A dense layer with a rectifier as ONE function of its operands, index by index:
      out[r, c] = max (Σₖ x[r, k] · w[k, c] + b[c]) 0      (r < M, k < K, c < N)
  over the extended reals, and the three-layer network over an arbitrary aggregation map A:
      net A = dense (A (dense (A (dense (A feat) W₁ b₁)) W₂ b₂)) W₃ b₃.
  Two trees of vector operations compute `dense` at the exact instance.  On the matrix unit: both operands
  narrowed to bf16 (the identity on extended reals), multiplied into a zero accumulator, the bias given as a
  1×N row broadcast down the rows, the rectifier a maximum with a splat zero.  On the host: the dot product of
  the operands, the bias vector placed on a unit axis and broadcast down the rows, the rectifier a maximum
  with a broadcast zero constant.  Both are the plain sum over the contraction coordinate, so they agree with
  `dense` with no appeal to finiteness: only that a sum into zero is the sum, and that each broadcast reads
  the bias at the column.
-/
import proofs.«168437_j13039520710795_1_alg».proof.Proof.LibPlainDot
import Idealize.ShloMosaic.Lib.ValueLayout

noncomputable section

namespace Cert.Dense

open Idealize.ShloMosaic Idealize.ShloMosaic.ValueIdx

variable {M K N : ℕ}

/-- An a×b matrix shape and a length-n vector shape, spelt with literal extents. -/
abbrev Sh2 (a b : ℕ) : Shape := ⟨2, ![a, b]⟩
abbrev Sh1 (n : ℕ) : Shape := ⟨1, ![n]⟩

/-- relu(x·w + b), index by index. -/
def dense (x : (Sh2 M K).Idx → EReal) (w : (Sh2 K N).Idx → EReal) (b : (Sh1 N).Idx → EReal) : (Sh2 M N).Idx → EReal :=
  fun i => max (∑ k : Fin K, x (ix2 (i 0) k) * w (ix2 k (i 1)) + b (ix1 (i 1))) 0

/-- Three dense layers, each after the same aggregation map `A` of the node features. -/
def net (A : ((Sh2 M K).Idx → EReal) → ((Sh2 M K).Idx → EReal))
    (feat : (Sh2 M K).Idx → EReal) (w1 : (Sh2 K K).Idx → EReal) (b1 : (Sh1 K).Idx → EReal)
    (w2 : (Sh2 K K).Idx → EReal) (b2 : (Sh1 K).Idx → EReal) (w3 : (Sh2 K N).Idx → EReal) (b3 : (Sh1 N).Idx → EReal) :
    (Sh2 M N).Idx → EReal :=
  dense (A (dense (A (dense (A feat) w1 b1)) w2 b2)) w3 b3

/-- The one row of a 1×N array, as a length-N vector. -/
def biasRow (b : (Sh2 1 N).Idx → EReal) : (Sh1 N).Idx → EReal := fun j => b (ix2 (0 : Fin 1) ((j 0 : Fin N)))

theorem biasRow_apply (b : (Sh2 1 N).Idx → EReal) (q : Fin N) : biasRow b (ix1 q) = b (ix2 (0 : Fin 1) q) := rfl

/-- A block of rows of the left operand gives that block of rows of the result: row p of the block is row `r p`
    of the array, the other two operands whole. -/
theorem dense_rowBlock {M' : ℕ} (X : (Sh2 M K).Idx → EReal) (w : (Sh2 K N).Idx → EReal) (b : (Sh1 N).Idx → EReal)
    (xb : (Sh2 M' K).Idx → EReal) (r : Fin M' → Fin M) (hx : ∀ p k, xb (ix2 p k) = X (ix2 (r p) k))
    (p : Fin M') (q : Fin N) : dense xb w b (ix2 p q) = dense X w b (ix2 (r p) q) := by
  show max (∑ k : Fin K, xb (ix2 p k) * w (ix2 k q) + b (ix1 q)) 0 = max (∑ k : Fin K, X (ix2 (r p) k) * w (ix2 k q) + b (ix1 q)) 0
  simp only [hx]

/-- The matrix unit's tree is `dense`, its bias row read at the column. -/
theorem unit_tree (d : DotDims (Sh2 M K) (Sh2 K N) (Sh2 M N)) (hd : d = DotDims.plain M K N)
    (x : FVec Ideal (Sh2 M K) .f32) (w : FVec Ideal (Sh2 K N) .f32) (b : FVec Ideal (Sh2 1 N) .f32)
    (hx : (Sh2 M K).ShapeCasts (Sh2 M K)) (hb : (Sh2 1 N).ShapeCasts (Sh2 1 N)) (hbc : (Sh2 1 N).Broadcasts (Sh2 M N))
    (h1 : FTy.bf16.bits < FTy.f32.bits) :
    maximumf (addf (matmul d none (truncf .bf16 (shapeCast (Sh2 M K) x hx) h1) (truncf .bf16 w h1) (constant (Sh2 M N) .f32 0x00000000#32))
        (broadcastTo (Sh2 M N) (shapeCast (Sh2 1 N) b hb) hbc)) (broadcast (Sh2 M N) (Scalar.ofBits .f32 0x00000000#32))
      = dense x w (biasRow b) := by
  subst hd
  funext i
  obtain ⟨p, q, rfl⟩ : ∃ (p : Fin M) (q : Fin N), i = ix2 p q := ⟨i 0, i 1, eq_ix2 i⟩
  rw [shapeCast_self, shapeCast_self]
  unfold dense maximumf addf broadcast truncf
  simp only [Ideal.maximumf_def, Ideal.addf_def, Ideal.truncf_def]
  rw [broadcastTo_1b_ab_apply]
  have hm := plain_matmul_zero_apply (M := M) (K := K) (N := N) none x w (ix2 p q)
  have hz : FloatOps.ofBits (F := Ideal) .f32 0x00000000#32 = 0 := (Ideal.ofBits_def _).trans Ideal.ofBits_zero_f32
  exact congrArg₂ max (congrArg (· + b (ix2 (0 : Fin 1) q)) hm) hz

/-- A bias vector placed on a unit axis, its one row read back, is the vector. -/
theorem biasRow_cast (b : (Sh1 N).Idx → EReal) (h : (Sh1 N).ShapeCasts (Sh2 1 N)) :
    biasRow (shapeCast (Sh2 1 N) b h) = b := by
  funext j
  obtain ⟨q, rfl⟩ : ∃ q : Fin N, j = ix1 q := ⟨j 0, eq_ix1 j⟩
  exact shapeCast_a_1a_apply b h 0 q

/-- The host's tree is `dense`. -/
theorem host_tree (d : DotDims (Sh2 M K) (Sh2 K N) (Sh2 M N)) (hd : d = DotDims.plain M K N)
    (x : FVec Ideal (Sh2 M K) .f32) (w : FVec Ideal (Sh2 K N) .f32) (b : FVec Ideal (Sh1 N) .f32)
    (h1 : (Sh1 N).BroadcastsInDim (Sh2 1 N) ![1]) (h2 : (Sh2 1 N).BroadcastsInDim (Sh2 M N) ![0, 1])
    (h3 : (⟨0, ![]⟩ : Shape).BroadcastsInDim (Sh2 M N) ![]) :
    maximumf (addf (Host.dotGeneral d none x w) (broadcastInDim (Sh2 M N) ![0, 1] h2 (broadcastInDim (Sh2 1 N) ![1] h1 b)))
        (broadcastInDim (Sh2 M N) ![] h3 (constant (⟨0, ![]⟩ : Shape) .f32 0x00000000#32))
      = dense x w b := by
  subst hd
  funext i
  obtain ⟨p, q, rfl⟩ : ∃ (p : Fin M) (q : Fin N), i = ix2 p q := ⟨i 0, i 1, eq_ix2 i⟩
  have e2 : broadcastInDim (Sh2 M N) ![0, 1] h2 (broadcastInDim (Sh2 1 N) ![1] h1 b) (ix2 p q)
      = broadcastInDim (Sh2 1 N) ![1] h1 b (ix2 (0 : Fin 1) q) :=
    broadcastInDim_apply _ h2 _ (ix2 p q) (ix2 (0 : Fin 1) q) fun a => by
      match a with
      | ⟨0, _⟩ => rfl
      | ⟨1, _⟩ =>
        show q.val = if N = 1 then 0 else q.val
        split
        · have := q.isLt; omega
        · rfl
  have e1 : broadcastInDim (Sh2 1 N) ![1] h1 b (ix2 (0 : Fin 1) q) = b (ix1 q) :=
    broadcastInDim_apply _ h1 b (ix2 (0 : Fin 1) q) (ix1 q) fun a => by
      match a with
      | ⟨0, _⟩ =>
        show q.val = if N = 1 then 0 else q.val
        split
        · have := q.isLt; omega
        · rfl
  have hz : FloatOps.ofBits (F := Ideal) .f32 0x00000000#32 = 0 := (Ideal.ofBits_def _).trans Ideal.ofBits_zero_f32
  have e3 : broadcastInDim (Sh2 M N) ![] h3 (constant (F := Ideal) (⟨0, ![]⟩ : Shape) .f32 0x00000000#32) (ix2 p q)
      = FloatOps.ofBits (F := Ideal) .f32 0x00000000#32 :=
    broadcastInDim_apply ![] h3 (constant (F := Ideal) (⟨0, ![]⟩ : Shape) .f32 0x00000000#32) (ix2 p q) ix0 fun a => a.elim0
  have hm := plain_dotGeneral_apply (M := M) (K := K) (N := N) none .single x w (ix2 p q)
  unfold dense maximumf addf
  simp only [Ideal.maximumf_def, Ideal.addf_def]
  rw [e2, e1, e3, hz]
  exact congrArg (fun s => max (s + b (ix1 q)) 0) hm

end Cert.Dense

end
-- ==== Proof.Region0.lean ====
/-
  The first pallas region: twenty row blocks of 5000 rows.  At grid point t the body reads rows
  5000·t … 5000·t + 4999 of the aggregated features, the whole weight matrix and the bias row, and stores
  relu(x·w + b) for those rows; the twenty blocks tile the 100000 rows, so after the grid the output array is
  the dense layer of the arrays the region found, whatever those are (the contents `V` are a parameter).
-/
import proofs.«168437_j13039520710795_1_alg».proof.Proof.Gen.KernelIdeal.Frame
import proofs.«168437_j13039520710795_1_alg».proof.Proof.Dense

set_option maxRecDepth 16384

noncomputable section

namespace Cert.KernelIdeal.Layer0

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one store holds the dense layer of the three loaded blocks. -/
theorem pay (x0 : Vec Ideal S5000x128 .f32) (x1 : Vec Ideal S128x128 .f32) (x2 : Vec Ideal S1x128 .f32) :
    k0_pay1 x0 x1 x2 = dense x0 x1 (biasRow x2) := by
  unfold k0_pay1
  exact unit_tree _ rfl x0 x1 x2 _ _ _ _

/-- The printed index maps over the grid: the row-block operand and the output move with the point, the weight
    and bias windows stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer's result as a function of the arrays the region finds. -/
abbrev G (c : Dev nD) : S100000x128.Idx → EReal :=
  dense (V c main_v9 : S100000x128.Idx → EReal) (V c main_arg3 : S128x128.Idx → EReal) (biasRow (V c main_v10 : S1x128.Idx → EReal))

theorem pt_lt (t : Fin cfg0.N) : t.val < 20 := lt_of_lt_of_eq t.isLt N_0

/-- Row p of the row-block operand's block at point t is row 5000·t + p of its array. -/
theorem blk0_read (c : Dev nD) (t : Fin cfg0.N) (p : Fin 5000) (k : Fin 128) :
    iblk0 V c 0 t (ix2 p k) = (V c main_v9 : S100000x128.Idx → EReal) (ix2 ⟨t.val * 5000 + p.val, by have := pt_lt t; omega⟩ k) := by
  obtain ⟨e00, e01, -⟩ := idx_facts t
  show V c main_v9 (((cfg0.win 0).blk t).view.emb (ix2 p k)) = _
  refine congrArg (V c main_v9) (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 128 + 1 * k.val = k.val; rw [e01]; omega

/-- The weight window's block is its whole array at every point. -/
theorem blk1_eq (c : Dev nD) (t : Fin cfg0.N) : iblk0 V c 1 t = (V c main_arg3 : S128x128.Idx → EReal) := by
  obtain ⟨-, -, e10, e11, -⟩ := idx_facts t
  funext y
  show V c main_arg3 (((cfg0.win 1).blk t).view.emb y) = _
  refine congrArg (V c main_arg3) (funext fun a => Fin.ext ?_)
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- The bias window's block is its whole array at every point. -/
theorem blk2_eq (c : Dev nD) (t : Fin cfg0.N) : iblk0 V c 2 t = (V c main_v10 : S1x128.Idx → EReal) := by
  obtain ⟨-, -, -, -, e20, e21, -⟩ := idx_facts t
  funext y
  show V c main_v10 (((cfg0.win 2).blk t).view.emb y) = _
  refine congrArg (V c main_v10) (funext fun a => Fin.ext ?_)
  match a with
  | ⟨0, _⟩ => show win0_2.index t (0 : Fin 2) * 1 + 1 * (y 0).val = (y 0).val; rw [e20]; omega
  | ⟨1, _⟩ => show win0_2.index t (1 : Fin 2) * 128 + 1 * (y 1).val = (y 1).val; rw [e21]; omega

/-- What point t writes back is block t of the layer's result. -/
theorem flushed (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay, blk1_eq, blk2_eq]
  obtain ⟨-, -, -, -, -, -, e30, e31⟩ := idx_facts t
  funext j
  obtain ⟨p, q, rfl⟩ : ∃ (p : Fin 5000) (q : Fin 128), j = ix2 p q := ⟨j 0, j 1, eq_ix2 j⟩
  show dense (iblk0 V c 0 t) (V c main_arg3 : S128x128.Idx → EReal) (biasRow (V c main_v10 : S1x128.Idx → EReal)) (ix2 p q)
    = G V c (((cfg0.win 3).blk t).view.emb (ix2 p q))
  have he : ((cfg0.win 3).blk t).view.emb (ix2 p q) = ix2 (⟨t.val * 5000 + p.val, by have := pt_lt t; omega⟩ : Fin 100000) q :=
    funext fun a => Fin.ext (by
      match a with
      | ⟨0, _⟩ => show win0_3.index t (0 : Fin 2) * 5000 + 1 * p.val = t.val * 5000 + p.val; rw [e30]; omega
      | ⟨1, _⟩ => show win0_3.index t (1 : Fin 2) * 128 + 1 * q.val = q.val; rw [e31]; omega)
  rw [he]
  exact dense_rowBlock _ _ _ _ (fun p => ⟨t.val * 5000 + p.val, by have := pt_lt t; omega⟩) (blk0_read V c t) p q

/-- An index of the output array lies in point t's block iff each coordinate lies in the block's range. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- Row r of the output lies in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 128 ≤ (i 1).val ∧ (i 1).val < win0_3.index t (1 : Fin 2) * 128 + 128; rw [e31]; omega

/-- After the grid the output array is the dense layer of the arrays the region found. -/
theorem layer (c : Dev nD) : (dat0 V c).arrAt 3 cfg0.N = G V c :=
  (dat0 V c).arrAt_eq_of_cover 3 (G V c) (fun t _ => flushed V c t) (cover)

end Cert.KernelIdeal.Layer0

end
-- ==== Proof.Region1.lean ====
/-
  The second pallas region: twenty row blocks of 5000 rows.  At grid point t the body reads rows
  5000·t … 5000·t + 4999 of the aggregated features, the whole weight matrix and the bias row, and stores
  relu(x·w + b) for those rows; the twenty blocks tile the 100000 rows, so after the grid the output array is
  the dense layer of the arrays the region found, whatever those are (the contents `V` are a parameter).
-/
import proofs.«168437_j13039520710795_1_alg».proof.Proof.Gen.KernelIdeal.Frame
import proofs.«168437_j13039520710795_1_alg».proof.Proof.Dense

set_option maxRecDepth 16384

noncomputable section

namespace Cert.KernelIdeal.Layer1

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one store holds the dense layer of the three loaded blocks. -/
theorem pay (x0 : Vec Ideal S5000x128 .f32) (x1 : Vec Ideal S128x128 .f32) (x2 : Vec Ideal S1x128 .f32) :
    k1_pay1 x0 x1 x2 = dense x0 x1 (biasRow x2) := by
  unfold k1_pay1
  exact unit_tree _ rfl x0 x1 x2 _ _ _ _

/-- The printed index maps over the grid: the row-block operand and the output move with the point, the weight
    and bias windows stay at block zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The layer's result as a function of the arrays the region finds. -/
abbrev G (c : Dev nD) : S100000x128.Idx → EReal :=
  dense (V c main_v21 : S100000x128.Idx → EReal) (V c main_arg5 : S128x128.Idx → EReal) (biasRow (V c main_v22 : S1x128.Idx → EReal))

theorem pt_lt (t : Fin cfg1.N) : t.val < 20 := lt_of_lt_of_eq t.isLt N_1

/-- Row p of the row-block operand's block at point t is row 5000·t + p of its array. -/
theorem blk0_read (c : Dev nD) (t : Fin cfg1.N) (p : Fin 5000) (k : Fin 128) :
    iblk1 V c 0 t (ix2 p k) = (V c main_v21 : S100000x128.Idx → EReal) (ix2 ⟨t.val * 5000 + p.val, by have := pt_lt t; omega⟩ k) := by
  obtain ⟨e00, e01, -⟩ := idx_facts t
  show V c main_v21 (((cfg1.win 0).blk t).view.emb (ix2 p k)) = _
  refine congrArg (V c main_v21) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 128 + 1 * k.val = k.val; rw [e01]; omega

/-- The weight window's block is its whole array at every point. -/
theorem blk1_eq (c : Dev nD) (t : Fin cfg1.N) : iblk1 V c 1 t = (V c main_arg5 : S128x128.Idx → EReal) := by
  obtain ⟨-, -, e10, e11, -⟩ := idx_facts t
  funext y
  show V c main_arg5 (((cfg1.win 1).blk t).view.emb y) = _
  refine congrArg (V c main_arg5) (funext fun a => Fin.ext ?_)
  match a with
  | ⟨0, _⟩ => show win1_1.index t (0 : Fin 2) * 128 + 1 * (y 0).val = (y 0).val; rw [e10]; omega
  | ⟨1, _⟩ => show win1_1.index t (1 : Fin 2) * 128 + 1 * (y 1).val = (y 1).val; rw [e11]; omega

/-- The bias window's block is its whole array at every point. -/
theorem blk2_eq (c : Dev nD) (t : Fin cfg1.N) : iblk1 V c 2 t = (V c main_v22 : S1x128.Idx → EReal) := by
  obtain ⟨-, -, -, -, e20, e21, -⟩ := idx_facts t
  funext y
  show V c main_v22 (((cfg1.win 2).blk t).view.emb y) = _
  refine congrArg (V c main_v22) (funext fun a => Fin.ext ?_)
  match a with
  | ⟨0, _⟩ => show win1_2.index t (0 : Fin 2) * 1 + 1 * (y 0).val = (y 0).val; rw [e20]; omega
  | ⟨1, _⟩ => show win1_2.index t (1 : Fin 2) * 128 + 1 * (y 1).val = (y 1).val; rw [e21]; omega

/-- What point t writes back is block t of the layer's result. -/
theorem flushed (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [pay, blk1_eq, blk2_eq]
  obtain ⟨-, -, -, -, -, -, e30, e31⟩ := idx_facts t
  funext j
  obtain ⟨p, q, rfl⟩ : ∃ (p : Fin 5000) (q : Fin 128), j = ix2 p q := ⟨j 0, j 1, eq_ix2 j⟩
  show dense (iblk1 V c 0 t) (V c main_arg5 : S128x128.Idx → EReal) (biasRow (V c main_v22 : S1x128.Idx → EReal)) (ix2 p q)
    = G V c (((cfg1.win 3).blk t).view.emb (ix2 p q))
  have he : ((cfg1.win 3).blk t).view.emb (ix2 p q) = ix2 (⟨t.val * 5000 + p.val, by have := pt_lt t; omega⟩ : Fin 100000) q :=
    funext fun a => Fin.ext (by
      match a with
      | ⟨0, _⟩ => show win1_3.index t (0 : Fin 2) * 5000 + 1 * p.val = t.val * 5000 + p.val; rw [e30]; omega
      | ⟨1, _⟩ => show win1_3.index t (1 : Fin 2) * 128 + 1 * q.val = q.val; rw [e31]; omega)
  rw [he]
  exact dense_rowBlock _ _ _ _ (fun p => ⟨t.val * 5000 + p.val, by have := pt_lt t; omega⟩) (blk0_read V c t) p q

/-- An index of the output array lies in point t's block iff each coordinate lies in the block's range. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v23).slice (win1_3.rect t)).set ↔ _
  rw [View.set_slice_whole, Rect.mem_set_unit]
  exact Iff.rfl

/-- Row r of the output lies in the block of point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e30, e31⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e30, ht]; omega
  | ⟨1, _⟩ => show win1_3.index t (1 : Fin 2) * 128 ≤ (i 1).val ∧ (i 1).val < win1_3.index t (1 : Fin 2) * 128 + 128; rw [e31]; omega

/-- After the grid the output array is the dense layer of the arrays the region found. -/
theorem layer (c : Dev nD) : (dat1 V c).arrAt 3 cfg1.N = G V c :=
  (dat1 V c).arrAt_eq_of_cover 3 (G V c) (fun t _ => flushed V c t) (cover)

end Cert.KernelIdeal.Layer1

end
-- ==== Proof.Region2.lean ====
/-
  The third pallas region (64 output columns): twenty row blocks of 5000 rows.  At grid point t the body reads rows
  5000·t … 5000·t + 4999 of the aggregated features, the whole weight matrix and the bias row, and stores
  relu(x·w + b) for those rows; the twenty blocks tile the 100000 rows, so after the grid the output array is
  the dense layer of the arrays the region found, whatever those are (the contents `V` are a parameter).
-/
import proofs.«168437_j13039520710795_1_alg».proof.Proof.Gen.KernelIdeal.Frame
import proofs.«168437_j13039520710795_1_alg».proof.Proof.Dense

set_option maxRecDepth 16384

noncomputable section

namespace Cert.KernelIdeal.Layer2

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one store holds the dense layer of the three loaded blocks. -/
theorem pay (x0 : Vec Ideal S5000x128 .f32) (x1 : Vec Ideal S128x64 .f32) (x2 : Vec Ideal S1x64 .f32) :
    k2_pay1 x0 x1 x2 = dense x0 x1 (biasRow x2) := by
  unfold k2_pay1
  exact unit_tree _ rfl x0 x1 x2 _ _ _ _

/-- The printed index maps over the grid: the row-block operand and the output move with the point, the weight
    and bias windows stay at block zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The layer's result as a function of the arrays the region finds. -/
abbrev G (c : Dev nD) : S100000x64.Idx → EReal :=
  dense (V c main_v33 : S100000x128.Idx → EReal) (V c main_arg7 : S128x64.Idx → EReal) (biasRow (V c main_v34 : S1x64.Idx → EReal))

theorem pt_lt (t : Fin cfg2.N) : t.val < 20 := lt_of_lt_of_eq t.isLt N_2

/-- Row p of the row-block operand's block at point t is row 5000·t + p of its array. -/
theorem blk0_read (c : Dev nD) (t : Fin cfg2.N) (p : Fin 5000) (k : Fin 128) :
    iblk2 V c 0 t (ix2 p k) = (V c main_v33 : S100000x128.Idx → EReal) (ix2 ⟨t.val * 5000 + p.val, by have := pt_lt t; omega⟩ k) := by
  obtain ⟨e00, e01, -⟩ := idx_facts t
  show V c main_v33 (((cfg2.win 0).blk t).view.emb (ix2 p k)) = _
  refine congrArg (V c main_v33) (funext fun a => Fin.ext ?_)
  match a with
  | ⟨0, _⟩ => show win2_0.index t (0 : Fin 2) * 5000 + 1 * p.val = t.val * 5000 + p.val; rw [e00]; omega
  | ⟨1, _⟩ => show win2_0.index t (1 : Fin 2) * 128 + 1 * k.val = k.val; rw [e01]; omega

/-- The weight window's block is its whole array at every point. -/
theorem blk1_eq (c : Dev nD) (t : Fin cfg2.N) : iblk2 V c 1 t = (V c main_arg7 : S128x64.Idx → EReal) := by
  obtain ⟨-, -, e10, e11, -⟩ := idx_facts t
  funext y
  show V c main_arg7 (((cfg2.win 1).blk t).view.emb y) = _
  refine congrArg (V c main_arg7) (funext fun a => Fin.ext ?_)
  match a with
  | ⟨0, _⟩ => show win2_1.index t (0 : Fin 2) * 128 + 1 * (y 0).val = (y 0).val; rw [e10]; omega
  | ⟨1, _⟩ => show win2_1.index t (1 : Fin 2) * 64 + 1 * (y 1).val = (y 1).val; rw [e11]; omega

/-- The bias window's block is its whole array at every point. -/
theorem blk2_eq (c : Dev nD) (t : Fin cfg2.N) : iblk2 V c 2 t = (V c main_v34 : S1x64.Idx → EReal) := by
  obtain ⟨-, -, -, -, e20, e21, -⟩ := idx_facts t
  funext y
  show V c main_v34 (((cfg2.win 2).blk t).view.emb y) = _
  refine congrArg (V c main_v34) (funext fun a => Fin.ext ?_)
  match a with
  | ⟨0, _⟩ => show win2_2.index t (0 : Fin 2) * 1 + 1 * (y 0).val = (y 0).val; rw [e20]; omega
  | ⟨1, _⟩ => show win2_2.index t (1 : Fin 2) * 64 + 1 * (y 1).val = (y 1).val; rw [e21]; omega

/-- What point t writes back is block t of the layer's result. -/
theorem flushed (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  rw [pay, blk1_eq, blk2_eq]
  obtain ⟨-, -, -, -, -, -, e30, e31⟩ := idx_facts t
  funext j
  obtain ⟨p, q, rfl⟩ : ∃ (p : Fin 5000) (q : Fin 64), j = ix2 p q := ⟨j 0, j 1, eq_ix2 j⟩
  show dense (iblk2 V c 0 t) (V c main_arg7 : S128x64.Idx → EReal) (biasRow (V c main_v34 : S1x64.Idx → EReal)) (ix2 p q)
    = G V c (((cfg2.win 3).blk t).view.emb (ix2 p q))
  have he : ((cfg2.win 3).blk t).view.emb (ix2 p q) = ix2 (⟨t.val * 5000 + p.val, by have := pt_lt t; omega⟩ : Fin 100000) q :=
    funext fun a => Fin.ext (by
      match a with
      | ⟨0, _⟩ => show win2_3.index t (0 : Fin 2) * 5000 + 1 * p.val = t.val * 5000 + p.val; rw [e30]; omega
      | ⟨1, _⟩ => show win2_3.index t (1 : Fin 2) * 64 + 1 * q.val = q.val; rw [e31]; omega)
  rw [he]
  exact dense_rowBlock _ _ _ _ (fun p => ⟨t.val * 5000 + p.val, by have := pt_lt t; omega⟩) (blk0_read V c t) p q

/-- An index of the output array lies in point t's block iff each coordinate lies in the block's range. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v35).slice (win2_3.rect t)).set ↔ _
  rw [View.set_slice_whole, Rect.mem_set_unit]
  exact Iff.rfl

/-- Row r of the output lies in the block of point r / 5000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e30, e31⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e30, ht]; omega
  | ⟨1, _⟩ => show win2_3.index t (1 : Fin 2) * 64 ≤ (i 1).val ∧ (i 1).val < win2_3.index t (1 : Fin 2) * 64 + 64; rw [e31]; omega

/-- After the grid the output array is the dense layer of the arrays the region found. -/
theorem layer (c : Dev nD) : (dat2 V c).arrAt 3 cfg2.N = G V c :=
  (dat2 V c).arrAt_eq_of_cover 3 (G V c) (fun t _ => flushed V c t) (cover)

end Cert.KernelIdeal.Layer2

end
-- ==== Proof.KernelArgs.lean ====
/-
  The arguments a later host stretch or region reads still hold their launch contents at each boundary of
  @main's fold before it: no host operation writes an argument, and a region writes only its output array.
  One lemma per (boundary, argument) pair that the value proof uses.
-/
import proofs.«168437_j13039520710795_1_alg».proof.Proof.Gen.KernelIdeal.Frame
import Idealize.ShloMosaic.Lib.StableHlo.Run

set_option maxRecDepth 16384

noncomputable section

namespace Cert.KernelIdeal.Args

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

theorem W1_arg7 (c : Dev nD) : W1 m ρ c (Proc.devRef .tc main_arg7) = m ((c : Thread nD τ).loc main_arg7) := by
  show StableHlo.after hostOps0 (W0 m ρ c) (Proc.devRef .tc main_arg7) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c

theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c

theorem W3_arg5 (c : Dev nD) : W3 m ρ c (Proc.devRef .tc main_arg5) = m ((c : Thread nD τ).loc main_arg5) := by
  show StableHlo.after hostOps1 (W2 m ρ c) (Proc.devRef .tc main_arg5) = _
  after_results
  exact W2_arg5 m ρ c

theorem W3_arg6 (c : Dev nD) : W3 m ρ c (Proc.devRef .tc main_arg6) = m ((c : Thread nD τ).loc main_arg6) := by
  show StableHlo.after hostOps1 (W2 m ρ c) (Proc.devRef .tc main_arg6) = _
  after_results
  exact W2_arg6 m ρ c

theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c

theorem W3_arg8 (c : Dev nD) : W3 m ρ c (Proc.devRef .tc main_arg8) = m ((c : Thread nD τ).loc main_arg8) := by
  show StableHlo.after hostOps1 (W2 m ρ c) (Proc.devRef .tc main_arg8) = _
  after_results
  exact W2_arg8 m ρ c

theorem W4_arg1 (c : Dev nD) : W4 m ρ c (Proc.devRef .tc main_arg1) = m ((c : Thread nD τ).loc main_arg1) :=
  (W4_of_ne m ρ c main_arg1 (by decide)).trans (W3_arg1 m ρ c)

theorem W4_arg2 (c : Dev nD) : W4 m ρ c (Proc.devRef .tc main_arg2) = m ((c : Thread nD τ).loc main_arg2) :=
  (W4_of_ne m ρ c main_arg2 (by decide)).trans (W3_arg2 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W4_arg8 (c : Dev nD) : W4 m ρ c (Proc.devRef .tc main_arg8) = m ((c : Thread nD τ).loc main_arg8) :=
  (W4_of_ne m ρ c main_arg8 (by decide)).trans (W3_arg8 m ρ c)

theorem W5_arg7 (c : Dev nD) : W5 m ρ c (Proc.devRef .tc main_arg7) = m ((c : Thread nD τ).loc main_arg7) := by
  show StableHlo.after hostOps2 (W4 m ρ c) (Proc.devRef .tc main_arg7) = _
  after_results
  exact W4_arg7 m ρ c

end Cert.KernelIdeal.Args

end
-- ==== Proof.KernelNet.lean ====
/-
  The kernel program's result as a function of its arguments.  @main alternates a stretch of host operations
  with a pallas region, three times.  Each stretch computes, from the node features h it is given, the edge
  indices and the segment ids, the aggregated features `agg src dst h` (gather the rows h[src] with negative
  indices wrapped, scatter-add them into a zero array by dst) and puts the layer's bias vector on a unit axis;
  each region then leaves the dense layer of those arrays in its output (the region modules); an argument read
  at a later boundary still holds its launch contents there (the table of cases).  Read through the
  boundaries of the fold, the last region's output is `net (agg src dst)` of the nine arguments.  The
  aggregation itself is never opened: it is carried as one function.
-/
import proofs.«168437_j13039520710795_1_alg».proof.Proof.Region0
import proofs.«168437_j13039520710795_1_alg».proof.Proof.Region1
import proofs.«168437_j13039520710795_1_alg».proof.Proof.Region2
import proofs.«168437_j13039520710795_1_alg».proof.Proof.KernelRun
import proofs.«168437_j13039520710795_1_alg».proof.Proof.KernelArgs
import Idealize.ShloMosaic.Lib.StableHlo.Run

set_option maxRecDepth 16384

noncomputable section

namespace Cert.KernelIdeal.Net

open Cert.KernelIdeal Cert.KernelIdeal.Gen Cert.KernelIdeal.Args Cert.Dense
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- One aggregation step: the rows of `h` at the source indices (a negative index counted from the end),
    summed into the rows the segment ids name, from zero. -/
def agg (src dst : IVec S1600000 32) (h : S100000x128.Idx → EReal) : S100000x128.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The argument arrays, by name. -/
abbrev feat (c : Dev nD) : S100000x128.Idx → EReal := m ((c : Thread nD τ).loc main_arg0)
abbrev src (c : Dev nD) : IVec S1600000 32 := m ((c : Thread nD τ).loc main_arg1)
abbrev dst (c : Dev nD) : IVec S1600000 32 := m ((c : Thread nD τ).loc main_arg2)
abbrev w1 (c : Dev nD) : S128x128.Idx → EReal := m ((c : Thread nD τ).loc main_arg3)
abbrev b1 (c : Dev nD) : S128.Idx → EReal := m ((c : Thread nD τ).loc main_arg4)
abbrev w2 (c : Dev nD) : S128x128.Idx → EReal := m ((c : Thread nD τ).loc main_arg5)
abbrev b2 (c : Dev nD) : S128.Idx → EReal := m ((c : Thread nD τ).loc main_arg6)
abbrev w3 (c : Dev nD) : S128x64.Idx → EReal := m ((c : Thread nD τ).loc main_arg7)
abbrev b3 (c : Dev nD) : S64.Idx → EReal := m ((c : Thread nD τ).loc main_arg8)

/-! ## The first stretch and region -/

theorem W1_v9 (c : Dev nD) : (W1 m ρ c (Proc.devRef .tc main_v9) : S100000x128.Idx → EReal) = agg (src m c) (dst m c) (feat m c) := by
  show StableHlo.after hostOps0 (W0 m ρ c) (Proc.devRef .tc main_v9) = _
  after_results
  rfl

theorem W1_v10 (c : Dev nD) : (W1 m ρ c (Proc.devRef .tc main_v10) : S1x128.Idx → EReal) = shapeCast S1x128 (b1 m c) shapeCasts_S128_S1x128 := by
  show StableHlo.after hostOps0 (W0 m ρ c) (Proc.devRef .tc main_v10) = _
  after_results
  rfl

/-- After the first region its output holds the first layer. -/
theorem W2_v11 (c : Dev nD) : (W2 m ρ c (Proc.devRef .tc main_v11) : S100000x128.Idx → EReal)
    = dense (agg (src m c) (dst m c) (feat m c)) (w1 m c) (b1 m c) := by
  refine (W2_arr m ρ c 3).trans ((Layer0.layer (V1 m ρ) c).trans ?_)
  show dense (W1 m ρ c (Proc.devRef .tc main_v9) : S100000x128.Idx → EReal) (W1 m ρ c (Proc.devRef .tc main_arg3) : S128x128.Idx → EReal)
      (biasRow (W1 m ρ c (Proc.devRef .tc main_v10) : S1x128.Idx → EReal)) = _
  rw [W1_v9, W1_arg3, W1_v10, biasRow_cast]

/-! ## The second stretch and region -/

/-- The first layer's output, by name. -/
abbrev h1 (c : Dev nD) : S100000x128.Idx → EReal := dense (agg (src m c) (dst m c) (feat m c)) (w1 m c) (b1 m c)

theorem W3_v21 (c : Dev nD) : (W3 m ρ c (Proc.devRef .tc main_v21) : S100000x128.Idx → EReal) = agg (src m c) (dst m c) (h1 m c) := by
  show StableHlo.after hostOps1 (W2 m ρ c) (Proc.devRef .tc main_v21) = _
  after_results
  rw [W2_arg1, W2_arg2, W2_v11]
  rfl

theorem W3_v22 (c : Dev nD) : (W3 m ρ c (Proc.devRef .tc main_v22) : S1x128.Idx → EReal) = shapeCast S1x128 (b2 m c) shapeCasts_S128_S1x128 := by
  show StableHlo.after hostOps1 (W2 m ρ c) (Proc.devRef .tc main_v22) = _
  after_results
  rw [W2_arg6]
  rfl

/-- After the second region its output holds the second layer. -/
theorem W4_v23 (c : Dev nD) : (W4 m ρ c (Proc.devRef .tc main_v23) : S100000x128.Idx → EReal)
    = dense (agg (src m c) (dst m c) (h1 m c)) (w2 m c) (b2 m c) := by
  refine (W4_arr m ρ c 3).trans ((Layer1.layer (V3 m ρ) c).trans ?_)
  show dense (W3 m ρ c (Proc.devRef .tc main_v21) : S100000x128.Idx → EReal) (W3 m ρ c (Proc.devRef .tc main_arg5) : S128x128.Idx → EReal)
      (biasRow (W3 m ρ c (Proc.devRef .tc main_v22) : S1x128.Idx → EReal)) = _
  rw [W3_v21, W3_arg5, W3_v22, biasRow_cast]

/-! ## The third stretch and region -/

/-- The second layer's output, by name. -/
abbrev h2 (c : Dev nD) : S100000x128.Idx → EReal := dense (agg (src m c) (dst m c) (h1 m c)) (w2 m c) (b2 m c)

theorem W5_v33 (c : Dev nD) : (W5 m ρ c (Proc.devRef .tc main_v33) : S100000x128.Idx → EReal) = agg (src m c) (dst m c) (h2 m c) := by
  show StableHlo.after hostOps2 (W4 m ρ c) (Proc.devRef .tc main_v33) = _
  after_results
  rw [W4_arg1, W4_arg2, W4_v23]
  rfl

theorem W5_v34 (c : Dev nD) : (W5 m ρ c (Proc.devRef .tc main_v34) : S1x64.Idx → EReal) = shapeCast S1x64 (b3 m c) shapeCasts_S64_S1x64 := by
  show StableHlo.after hostOps2 (W4 m ρ c) (Proc.devRef .tc main_v34) = _
  after_results
  rw [W4_arg8]
  rfl

/-- The three-layer network of the arguments. -/
abbrev result (c : Dev nD) : S100000x64.Idx → EReal :=
  net (agg (src m c) (dst m c)) (feat m c) (w1 m c) (b1 m c) (w2 m c) (b2 m c) (w3 m c) (b3 m c)

/-- After the third region the result array holds the network of the arguments. -/
theorem W6_v35 (c : Dev nD) : (W6 m ρ c (Proc.devRef .tc main_v35) : S100000x64.Idx → EReal) = result m c := by
  refine (W6_arr m ρ c 3).trans ((Layer2.layer (V5 m ρ) c).trans ?_)
  show dense (W5 m ρ c (Proc.devRef .tc main_v33) : S100000x128.Idx → EReal) (W5 m ρ c (Proc.devRef .tc main_arg7) : S128x64.Idx → EReal)
      (biasRow (W5 m ρ c (Proc.devRef .tc main_v34) : S1x64.Idx → EReal)) = _
  rw [W5_v33, W5_arg7, W5_v34, biasRow_cast]
  rfl

/-! ## The run -/

/-- The kernel program's run: the result array ends at the network of the arguments, the arguments unchanged. -/
theorem run : θ_run defs (onTc (τ := τ) (main (F := Ideal))) ⟨m, fun _ => 0, ρ⟩ fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (W6_v35 m ρ c), (h c).2⟩) (Cert.KernelIdeal.RunNamed.run (F := Ideal) m ρ)

end Cert.KernelIdeal.Net

end
-- ==== Proof.RefNet.lean ====
/-
  The reference's result as one function of its arguments.  Its @main is three times: the aggregation of the
  node features (gather the rows h[src] with negative indices wrapped, scatter-add them into a zero array by
  dst), the dot product with the layer's weights, the bias broadcast down the rows, and a maximum with zero.
  The last three are the host's tree for a dense layer (`Dense.host_tree`), so the run's composed term is
  `net (agg src dst)` of the nine arguments; the aggregation is carried as one function and never opened.
-/
import proofs.«168437_j13039520710795_1_alg».proof.Proof.Gen.ReferenceIdeal.Run
import proofs.«168437_j13039520710795_1_alg».proof.Proof.Dense

noncomputable section

namespace Cert.ReferenceIdeal.Net

open Cert.ReferenceIdeal Cert.ReferenceIdeal.Gen Cert.Dense
open Idealize.ShloMosaic Idealize.ShloMosaic.TcCoe Idealize.ShloMosaic.ValueIdx Idealize.SL.Sem

variable (m : (ℓ : Loc nD τ sig) → Buf (Elt Ideal) ℓ) (ρ : Dev nD → PrngReg)

/-- One aggregation step: the rows of `h` at the source indices (a negative index counted from the end),
    summed into the rows the segment ids name, from zero. -/
def agg (src dst : IVec S1600000 32) (h : S100000x128.Idx → EReal) : S100000x128.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The argument arrays, by name. -/
abbrev feat (c : Dev nD) : S100000x128.Idx → EReal := m ((c.tc : Thread nD τ).loc main_arg0)
abbrev src (c : Dev nD) : IVec S1600000 32 := m ((c.tc : Thread nD τ).loc main_arg1)
abbrev dst (c : Dev nD) : IVec S1600000 32 := m ((c.tc : Thread nD τ).loc main_arg2)
abbrev w1 (c : Dev nD) : S128x128.Idx → EReal := m ((c.tc : Thread nD τ).loc main_arg3)
abbrev b1 (c : Dev nD) : S128.Idx → EReal := m ((c.tc : Thread nD τ).loc main_arg4)
abbrev w2 (c : Dev nD) : S128x128.Idx → EReal := m ((c.tc : Thread nD τ).loc main_arg5)
abbrev b2 (c : Dev nD) : S128.Idx → EReal := m ((c.tc : Thread nD τ).loc main_arg6)
abbrev w3 (c : Dev nD) : S128x64.Idx → EReal := m ((c.tc : Thread nD τ).loc main_arg7)
abbrev b3 (c : Dev nD) : S64.Idx → EReal := m ((c.tc : Thread nD τ).loc main_arg8)

/-- The three-layer network of the arguments. -/
abbrev result (c : Dev nD) : S100000x64.Idx → EReal :=
  net (agg (src m c) (dst m c)) (feat m c) (w1 m c) (b1 m c) (w2 m c) (b2 m c) (w3 m c) (b3 m c)

/-- The reference's run: the result array ends at the network of the arguments, the arguments unchanged. -/
theorem run : θ_run defs (onTc (τ := τ) (main (F := Ideal))) ⟨m, fun _ => 0, ρ⟩ fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2⟩) (Cert.ReferenceIdeal.Value.run (F := Ideal) m ρ)
  have L1 := host_tree dot_S100000x128_S128x128_S100000x128_1_0_0_1_n_n rfl (agg (src m c) (dst m c) (feat m c)) (w1 m c) (b1 m c)
    bcast_S128_S1x128_1 bcast_S1x128_S100000x128_0_1 bcast_S_S100000x128
  have L2 := host_tree dot_S100000x128_S128x128_S100000x128_1_0_0_1_n_n rfl
    (agg (src m c) (dst m c) (dense (agg (src m c) (dst m c) (feat m c)) (w1 m c) (b1 m c))) (w2 m c) (b2 m c)
    bcast_S128_S1x128_1 bcast_S1x128_S100000x128_0_1 bcast_S_S100000x128
  have L3 := host_tree dot_S100000x128_S128x64_S100000x64_1_0_0_1_n_n rfl
    (agg (src m c) (dst m c) (dense (agg (src m c) (dst m c) (dense (agg (src m c) (dst m c) (feat m c)) (w1 m c) (b1 m c))) (w2 m c) (b2 m c)))
    (w3 m c) (b3 m c) bcast_S64_S1x64_1 bcast_S1x64_S100000x64_0_1 bcast_S_S100000x64
  show _ = net (agg (src m c) (dst m c)) (feat m c) (w1 m c) (b1 m c) (w2 m c) (b2 m c) (w3 m c) (b3 m c)
  unfold net
  rw [← L3, ← L2, ← L1]
  unfold agg
  rfl

end Cert.ReferenceIdeal.Net

end
-- ==== Proof.lean ====
/-
  A three-layer GraphSAGE network: each layer aggregates the node features over the edges (the rows h[src]
  summed into the rows dst names) and applies relu(a·W + b).  The kernel program computes the aggregation on the
  host and the dense layer in a pallas region of twenty row blocks, with operands narrowed to bf16 into the
  matrix unit; the reference computes everything on the host.  Over the extended reals the narrowing is the
  identity and a product into a zero accumulator is the plain sum over the contraction coordinate, as the
  host's dot product is, so both programs end at  net (agg src dst)  of the nine arguments (`Dense.net`): the
  kernel program by reading its fold of boundaries (KernelNet), the reference by reading its run's composed
  term (RefNet).  The aggregation is the same chain of host operations in both and is carried as one function.
  No algebraic law beyond that is used, so the precondition is never opened.  The pass that printed the
  idealized kernel rewrote nothing, so there is nothing to preserve.
-/
import proofs.«168437_j13039520710795_1_alg».proof.Defs
import proofs.«168437_j13039520710795_1_alg».proof.Proof.Gen.Kernel
import proofs.«168437_j13039520710795_1_alg».proof.Proof.Gen.Kernel.Frame
import proofs.«168437_j13039520710795_1_alg».proof.Proof.Gen.KernelIdeal
import proofs.«168437_j13039520710795_1_alg».proof.Proof.Gen.KernelIdeal.Frame
import proofs.«168437_j13039520710795_1_alg».proof.Proof.Gen.ReferenceIdeal
import proofs.«168437_j13039520710795_1_alg».proof.Proof.Gen.ReferenceIdeal.Run
import proofs.«168437_j13039520710795_1_alg».proof.Proof.Gen.Pre_finite_inputs
import proofs.«168437_j13039520710795_1_alg».proof.Proof.KernelNet
import proofs.«168437_j13039520710795_1_alg».proof.Proof.RefNet
import Idealize.ShloMosaic.Adequacy
import Idealize.ShloMosaic.Init

noncomputable section

namespace Cert.Proof

open Idealize.ShloMosaic Idealize.SL.Sem

/-- The word-level kernel program runs and keeps its arguments: the generated frame over its three regions. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs' aggregation steps are one function: the same host operations over equal dimension records. -/
theorem agg_eq (src dst : IVec Cert.KernelIdeal.S1600000 32) (h : Cert.KernelIdeal.S100000x128.Idx → EReal) :
    Cert.ReferenceIdeal.Net.agg src dst h = Cert.KernelIdeal.Net.agg src dst h := rfl

/-- From memories agreeing on the arguments both programs end at the same network of the arguments. -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun r h c => ⟨(h c).1.trans ?_, (h c).2⟩) (Cert.ReferenceIdeal.Net.run m' ρ')
  obtain ⟨e0, e1, e2, e3, e4, e5, e6, e7, e8⟩ := hagree c
  show Cert.Dense.net (Cert.ReferenceIdeal.Net.agg (Cert.ReferenceIdeal.Net.src m' c) (Cert.ReferenceIdeal.Net.dst m' c))
      (Cert.ReferenceIdeal.Net.feat m' c) (Cert.ReferenceIdeal.Net.w1 m' c) (Cert.ReferenceIdeal.Net.b1 m' c)
      (Cert.ReferenceIdeal.Net.w2 m' c) (Cert.ReferenceIdeal.Net.b2 m' c) (Cert.ReferenceIdeal.Net.w3 m' c) (Cert.ReferenceIdeal.Net.b3 m' c)
    = Cert.Dense.net (Cert.KernelIdeal.Net.agg (Cert.KernelIdeal.Net.src m c) (Cert.KernelIdeal.Net.dst m c))
      (Cert.KernelIdeal.Net.feat m c) (Cert.KernelIdeal.Net.w1 m c) (Cert.KernelIdeal.Net.b1 m c)
      (Cert.KernelIdeal.Net.w2 m c) (Cert.KernelIdeal.Net.b2 m c) (Cert.KernelIdeal.Net.w3 m c) (Cert.KernelIdeal.Net.b3 m c)
  unfold Cert.ReferenceIdeal.Net.src Cert.ReferenceIdeal.Net.dst Cert.ReferenceIdeal.Net.feat Cert.ReferenceIdeal.Net.w1 Cert.ReferenceIdeal.Net.b1
    Cert.ReferenceIdeal.Net.w2 Cert.ReferenceIdeal.Net.b2 Cert.ReferenceIdeal.Net.w3 Cert.ReferenceIdeal.Net.b3
  rw [e0, e1, e2, e3, e4, e5, e6, e7, e8]
  exact congrArg (fun A => Cert.Dense.net A _ _ _ _ _ _ _) (funext fun h => agg_eq _ _ h)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
